-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x15 : Shape := ⟨2, ![1, 15]⟩
abbrev S15 : Shape := ⟨1, ![15]⟩
abbrev S_ : Shape := ⟨0, ![]⟩

abbrev nBuf : Space → Nat
  | .hbm => 33
  | .vmem => 10
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x15, .f32⟩
  | .hbm, ⟨8, _⟩ => ⟨S15, .f32⟩
  | .hbm, ⟨9, _⟩ => ⟨S1x15, .f32⟩
  | .hbm, ⟨10, _⟩ => ⟨S15, .f32⟩
  | .hbm, ⟨11, _⟩ => ⟨S1x15, .f32⟩
  | .hbm, ⟨12, _⟩ => ⟨S15, .f32⟩
  | .hbm, ⟨13, _⟩ => ⟨S_, .f32⟩
  | .hbm, ⟨14, _⟩ => ⟨S15, .f32⟩
  | .hbm, ⟨15, _⟩ => ⟨S15, .f32⟩
  | .hbm, ⟨16, _⟩ => ⟨S15, .f32⟩
  | .hbm, ⟨17, _⟩ => ⟨S15, .f32⟩
  | .hbm, ⟨18, _⟩ => ⟨S_, .f32⟩
  | .hbm, ⟨19, _⟩ => ⟨S15, .f32⟩
  | .hbm, ⟨20, _⟩ => ⟨S15, .f32⟩
  | .hbm, ⟨21, _⟩ => ⟨S_, .f32⟩
  | .hbm, ⟨22, _⟩ => ⟨S15, .f32⟩
  | .hbm, ⟨23, _⟩ => ⟨S15, .i1⟩
  | .hbm, ⟨24, _⟩ => ⟨S15, .f32⟩
  | .hbm, ⟨25, _⟩ => ⟨S15, .f32⟩
  | .hbm, ⟨26, _⟩ => ⟨S15, .f32⟩
  | .hbm, ⟨27, _⟩ => ⟨S_, .f32⟩
  | .hbm, ⟨28, _⟩ => ⟨S_, .f32⟩
  | .hbm, ⟨29, _⟩ => ⟨S15, .f32⟩
  | .hbm, ⟨30, _⟩ => ⟨S15, .f32⟩
  | .hbm, ⟨31, _⟩ => ⟨S_, .f32⟩
  | .hbm, ⟨32, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v695 : BitVec 1 := Scalar.cmpi .eq arg0 c63_i32
  let v696 : BitVec 32 := Scalar.extui v695
  let c0_i32_323 : BitVec 32 := 0#32
  let v697 : BitVec 1 := Scalar.cmpi .ne v696 c0_i32_323
  v697

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S33554432_S262144x128 : S33554432.ShapeCasts S262144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x128_d1_w32 : S1x128.Iotas .tc 32 [1]
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  natLt_1_32 : 1 < 32
  broadcasts_S1x1_S1x128 : S1x1.Broadcasts S1x128
  slices_S1x128_S1x15_0_0 : S1x128.Slices ![0, 0] S1x15
  shapeCasts_S1x15_S15 : S1x15.ShapeCasts S15
  bcast_S_S15 : S_.BroadcastsInDim S15 (![] : Fin 0 → Fin S15.rank)
  reducesTo_S15_S_d0 : S15.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .i32 = 32 ∨ (Rect.block (s := S262144x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S15 : Shape := ⟨1, ![15]⟩
abbrev S33554432x1 : Shape := ⟨2, ![33554432, 1]⟩

abbrev nBuf : Space → Nat
  | .hbm => 61
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S33554432, .f32⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S33554432, .f32⟩
  | .hbm, ⟨15, _⟩ => ⟨S33554432, .i32⟩
  | .hbm, ⟨16, _⟩ => ⟨S_, .i32⟩
  | .hbm, ⟨17, _⟩ => ⟨S33554432, .i32⟩
  | .hbm, ⟨18, _⟩ => ⟨S33554432, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S33554432, .i32⟩
  | .hbm, ⟨23, _⟩ => ⟨S33554432, .i32⟩
  | .hbm, ⟨24, _⟩ => ⟨S_, .i32⟩
  | .hbm, ⟨25, _⟩ => ⟨S33554432, .i32⟩
  | .hbm, ⟨26, _⟩ => ⟨S33554432, .i32⟩
  | .hbm, ⟨27, _⟩ => ⟨S_, .f32⟩
  | .hbm, ⟨28, _⟩ => ⟨S15, .f32⟩
  | .hbm, ⟨29, _⟩ => ⟨S33554432x1, .i32⟩
  | .hbm, ⟨30, _⟩ => ⟨S15, .f32⟩
  | .hbm, ⟨31, _⟩ => ⟨S_, .f32⟩
  | .hbm, ⟨32, _⟩ => ⟨S15, .f32⟩
  | .hbm, ⟨33, _⟩ => ⟨S33554432x1, .i32⟩
  | .hbm, ⟨34, _⟩ => ⟨S15, .f32⟩
  | .hbm, ⟨35, _⟩ => ⟨S_, .f32⟩
  | .hbm, ⟨36, _⟩ => ⟨S33554432, .f32⟩
  | .hbm, ⟨37, _⟩ => ⟨S_, .f32⟩
  | .hbm, ⟨38, _⟩ => ⟨S15, .f32⟩
  | .hbm, ⟨39, _⟩ => ⟨S33554432x1, .i32⟩
  | .hbm, ⟨40, _⟩ => ⟨S15, .f32⟩
  | .hbm, ⟨41, _⟩ => ⟨S_, .f32⟩
  | .hbm, ⟨42, _⟩ => ⟨S15, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S_, .f32⟩
  | .hbm, ⟨47, _⟩ => ⟨S15, .f32⟩
  | .hbm, ⟨48, _⟩ => ⟨S15, .f32⟩
  | .hbm, ⟨49, _⟩ => ⟨S_, .f32⟩
  | .hbm, ⟨50, _⟩ => ⟨S15, .f32⟩
  | .hbm, ⟨51, _⟩ => ⟨S15, .i1⟩
  | .hbm, ⟨52, _⟩ => ⟨S15, .f32⟩
  | .hbm, ⟨53, _⟩ => ⟨S15, .f32⟩
  | .hbm, ⟨54, _⟩ => ⟨S15, .f32⟩
  | .hbm, ⟨55, _⟩ => ⟨S_, .f32⟩
  | .hbm, ⟨56, _⟩ => ⟨S_, .f32⟩
  | .hbm, ⟨57, _⟩ => ⟨S15, .f32⟩
  | .hbm, ⟨58, _⟩ => ⟨S15, .f32⟩
  | .hbm, ⟨59, _⟩ => ⟨S_, .f32⟩
  | .hbm, ⟨60, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_call1_v0 : Ref sig .tc := ⟨.hbm, 56, rfl⟩
abbrev main_call1_v1 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S15 : S_.BroadcastsInDim S15 (![] : Fin 0 → Fin S15.rank)
  bcast_S33554432_S33554432x1_0 : S33554432.BroadcastsInDim S33554432x1 (![0] : Fin 1 → Fin S33554432x1.rank)
  reducesTo_S15_S_d0 : S15.ReducesTo [0] S_
  h_S_ : 0 < S_.numel
  scatter_S15_S33554432x1_S33554432_n_0_0_1_wf : ScatterDims.WF S15 S33554432x1 S33554432 [] [0] [0] 1

variable [Facts₀]

def scatter_S15_S33554432x1_S33554432_n_0_0_1 : ScatterDims S15 S33554432x1 S33554432 where
  updateWindowDims := []
  insertedWindowDims := [0]
  scatterDimsToOperandDims := [0]
  indexVectorDim := 1
  wf := scatter_S15_S33554432x1_S33554432_n_0_0_1_wf

class Facts : Prop extends Facts₀ where

variable [Facts]
-- ==== Proof.KStep.lean ====
/-
  What one grid point of the kernel adds to a carried accumulator row, in the kernel's own operations and at any
  float instance: the block's probabilities `p = logistic x`, its bins `clip(⌈15 p⌉ − 1, 0, 14)`, and for each bin
  `b = 0 … 14` in turn the total over the block of a vector that is zero off bin `b`, added to the row at lane `b`
  (the row times a one-hot row). The three accumulators differ only in the vector: the probabilities, the labels, ones.
-/
import proofs.«156423_j2207613190488_1_alg».proof.Proof.Gen.KernelIdeal.Frame
import Idealize.ShloMosaic.Lib.Pipeline.Value
import Idealize.ShloMosaic.Lib.ValueIdx

noncomputable section

namespace Cert.KernelIdeal.KValue

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- The probabilities of a block of logits. -/
def probsV (x0 : Vec F S4096x128 .f32) : FVec F S4096x128 .f32 :=
  logistic (shapeCast S4096x128 x0 shapeCasts_S4096x128_S4096x128)

/-- The bins of a block of logits: `⌈15 p⌉ − 1` clipped to `[0, 14]`. -/
def binsV (x0 : Vec F S4096x128 .f32) : IVec S4096x128 32 :=
  minsi (broadcast S4096x128 14#32) (maxsi (broadcast S4096x128 0#32)
    (subi (fptosi 32 (ceil (mulf (probsV x0) (broadcast S4096x128 (FloatOps.ofBits .f32 0x41700000#32)))))
      (broadcast S4096x128 1#32)))

/-- The labels of a block as numbers. -/
def labsV (x1 : Vec F S4096x128 .i32) : FVec F S4096x128 .f32 :=
  sitofp .f32 (shapeCast S4096x128 x1 shapeCasts_S4096x128_S4096x128)

/-- Where a block's bin is `b`. -/
def maskV (x0 : Vec F S4096x128 .f32) (b : BitVec 32) : IVec S4096x128 1 :=
  cmpi .eq (binsV x0) (broadcast S4096x128 b)

/-- The three vectors a block contributes to bin `b`: its probabilities, its labels, and ones, each where the bin is `b`
    and zero elsewhere. -/
def valP (x0 : Vec F S4096x128 .f32) (b : BitVec 32) : FVec F S4096x128 .f32 :=
  select (maskV x0 b) (probsV x0) (broadcast S4096x128 (FloatOps.ofBits .f32 0x00000000#32))
def valT (x0 : Vec F S4096x128 .f32) (x1 : Vec F S4096x128 .i32) (b : BitVec 32) : FVec F S4096x128 .f32 :=
  select (maskV x0 b) (labsV x1) (broadcast S4096x128 (FloatOps.ofBits .f32 0x00000000#32))
def valC (x0 : Vec F S4096x128 .f32) (b : BitVec 32) : FVec F S4096x128 .f32 :=
  sitofp .f32 (extui 32 (maskV x0 b) natLt_1_32)

/-- A block-shaped vector summed over its lanes and then over its rows, the total laid along a row of 128 lanes. -/
def totalV (v : FVec F S4096x128 .f32) : FVec F S1x128 .f32 :=
  broadcastTo S1x128 (shapeCast S1x1 (multiReduction .add [0] S1
    (shapeCast S4096x1 (multiReduction .add [1] S4096 v 0x00000000#32 reduces_S4096x128_S4096 (.inl rfl) rfl) shapeCasts_S4096_S4096x1)
    0x00000000#32 reduces_S4096x1_S1 (.inl rfl) rfl) shapeCasts_S1_S1x1) broadcasts_S1x1_S1x128

/-- The row that is one at lane `b` and zero elsewhere. -/
def onehotV (b : BitVec 32) : FVec F S1x128 .f32 :=
  sitofp .f32 (extui 32 (cmpi .eq (iota .tc S1x128 32 [1] iota_S1x128_d1_w32) (broadcast S1x128 b)) natLt_1_32)

/-- One bin's update of an accumulator row: the total of `v` added at lane `b`. -/
def stepV (b : BitVec 32) (v : FVec F S4096x128 .f32) (acc : FVec F S1x128 .f32) : FVec F S1x128 .f32 :=
  shapeCast S1x128 (addf acc (mulf (onehotV b) (totalV v))) shapeCasts_S1x128_S1x128

/-- The fifteen updates of one grid point, bin 0 first. -/
def upd (val : BitVec 32 → FVec F S4096x128 .f32) (acc : FVec F S1x128 .f32) : FVec F S1x128 .f32 :=
  (List.range 15).foldl (fun a b => stepV (BitVec.ofNat 32 b) (val (BitVec.ofNat 32 b)) a) acc

/-- The zero row the first grid point starts from. -/
def zeroRow : FVec F S1x128 .f32 :=
  shapeCast S1x128 (broadcast S1x128 (FloatOps.ofBits (F := F) .f32 0x00000000#32)) shapeCasts_S1x128_S1x128

end Cert.KernelIdeal.KValue

end
-- ==== Proof.Pieces.lean ====
/-
  What each control case of the kernel body leaves in the three carried accumulator rows, and, at the last grid
  point, in the three output rows. Every store covers its whole row, so a row ends at the last store's value and a
  load after a store reads that store's value; unfolding the fifteen load–add–store rounds of a grid point gives the
  fifteen updates of `KStep`. At the first grid point the rows are zeroed first; at the last one each accumulator is
  copied to its output.
-/
import proofs.«156423_j2207613190488_1_alg».proof.Proof.KStep

set_option maxRecDepth 16384

noncomputable section

namespace Idealize.ShloMosaic.View
variable {Val : EltTy → Type} {S : Shape} {e : EltTy}
/-- A load through the whole-shape rectangle, of what a store through that rectangle left LAST, reads that store's
    value, whatever was stored before it. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]
end Idealize.ShloMosaic.View

namespace Cert.KernelIdeal.KValue

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- The zero offsets of a row and of a block, as the constant function. -/
theorem rowOff : (![0, 0] : Fin S1x128.rank → Nat) = fun _ => 0 := by
  funext a; match a with | ⟨0, _⟩ => rfl | ⟨1, _⟩ => rfl
theorem blockOff : (![0, 0] : Fin S4096x128.rank → Nat) = fun _ => 0 := by
  funext a; match a with | ⟨0, _⟩ => rfl | ⟨1, _⟩ => rfl

variable (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
variable (x0 : Vec F S4096x128 .f32) (x1 : Vec F S4096x128 .i32) (xs0 xs1 xs2 : Vec F S1x128 .f32)

/-- A case's pieces read back: the last covering store's value, each load of a row the value stored before it, the
    loads of the input blocks the blocks. -/
local macro "read_pieces" : tactic => `(tactic| (
  dsimp only
  sl_unfold_run_names
  simp only [View.canon_cons_unit_zero (S := S1x128) rowOff, View.canon_unit_zero (S := S1x128) rowOff,
    View.readCov_cons_unit_zero (S := S1x128) _ rowOff, View.readCov_unit_zero (S := S1x128) _ rowOff, View.readAt_eq_ld,
    Memref.IsWhole.read_unread, View.ld_unit_zero (S := S1x128) rowOff, View.ld_unit_zero (S := S4096x128) blockOff]
  rfl))

/-! ## The first grid point: the rows zeroed, then the fifteen updates -/

theorem first_P (hc0 : cond0_0 i) (hc1 : ¬cond0_1 i) :
    sout0_A_0 (F := F) c i arg1 harg1 arg2 harg2 arg3 harg3 arg4 harg4 arg5 harg5 arg6 harg6 arg7 harg7 arg8 harg8 hc0 hc1 x0 x1 = upd (valP x0) zeroRow := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1)]
  unfold kernelRun0_A
  read_pieces

theorem first_T (hc0 : cond0_0 i) (hc1 : ¬cond0_1 i) :
    sout0_A_1 (F := F) c i arg1 harg1 arg2 harg2 arg3 harg3 arg4 harg4 arg5 harg5 arg6 harg6 arg7 harg7 arg8 harg8 hc0 hc1 x0 x1 = upd (valT x0 x1) zeroRow := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1)]
  unfold kernelRun0_A
  read_pieces

theorem first_C (hc0 : cond0_0 i) (hc1 : ¬cond0_1 i) :
    sout0_A_2 (F := F) c i arg1 harg1 arg2 harg2 arg3 harg3 arg4 harg4 arg5 harg5 arg6 harg6 arg7 harg7 arg8 harg8 hc0 hc1 x0 x1 = upd (valC x0) zeroRow := by
  unfold sout0_A_2
  rw [View.read_writes_eq_canon _ _ _ (scover0_A_2 c i arg1 harg1 arg2 harg2 arg3 harg3 arg4 harg4 arg5 harg5 arg6 harg6 arg7 harg7 arg8 harg8 hc0 hc1 x0 x1)]
  unfold kernelRun0_A
  read_pieces

/-! ## A middle grid point: the fifteen updates of what the point before left -/

theorem mid_P (hc0 : ¬cond0_0 i) (hc1 : ¬cond0_1 i) :
    sout0_B_0 (F := F) c i arg1 harg1 arg2 harg2 arg3 harg3 arg4 harg4 arg5 harg5 arg6 harg6 arg7 harg7 arg8 harg8 hc0 hc1 x0 x1 xs0 xs1 xs2 = upd (valP x0) xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 xs0 xs1 xs2)]
  unfold kernelRun0_B
  read_pieces

theorem mid_T (hc0 : ¬cond0_0 i) (hc1 : ¬cond0_1 i) :
    sout0_B_1 (F := F) c i arg1 harg1 arg2 harg2 arg3 harg3 arg4 harg4 arg5 harg5 arg6 harg6 arg7 harg7 arg8 harg8 hc0 hc1 x0 x1 xs0 xs1 xs2 = upd (valT x0 x1) xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 xs0 xs1 xs2)]
  unfold kernelRun0_B
  read_pieces

theorem mid_C (hc0 : ¬cond0_0 i) (hc1 : ¬cond0_1 i) :
    sout0_B_2 (F := F) c i arg1 harg1 arg2 harg2 arg3 harg3 arg4 harg4 arg5 harg5 arg6 harg6 arg7 harg7 arg8 harg8 hc0 hc1 x0 x1 xs0 xs1 xs2 = upd (valC x0) xs2 := by
  unfold sout0_B_2
  rw [View.read_writes_eq_canon _ _ _ (scover0_B_2 c i arg1 harg1 arg2 harg2 arg3 harg3 arg4 harg4 arg5 harg5 arg6 harg6 arg7 harg7 arg8 harg8 hc0 hc1 x0 x1 xs0 xs1 xs2)]
  unfold kernelRun0_B
  read_pieces

/-! ## The last grid point: the same updates, and each accumulator copied to its output row -/

theorem last_P (hc0 : ¬cond0_0 i) (hc1 : cond0_1 i) :
    sout0_C_0 (F := F) c i arg1 harg1 arg2 harg2 arg3 harg3 arg4 harg4 arg5 harg5 arg6 harg6 arg7 harg7 arg8 harg8 hc0 hc1 x0 x1 xs0 xs1 xs2 = upd (valP x0) xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 xs0 xs1 xs2)]
  unfold kernelRun0_C
  read_pieces

theorem last_T (hc0 : ¬cond0_0 i) (hc1 : cond0_1 i) :
    sout0_C_1 (F := F) c i arg1 harg1 arg2 harg2 arg3 harg3 arg4 harg4 arg5 harg5 arg6 harg6 arg7 harg7 arg8 harg8 hc0 hc1 x0 x1 xs0 xs1 xs2 = upd (valT x0 x1) xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 xs0 xs1 xs2)]
  unfold kernelRun0_C
  read_pieces

theorem last_C (hc0 : ¬cond0_0 i) (hc1 : cond0_1 i) :
    sout0_C_2 (F := F) c i arg1 harg1 arg2 harg2 arg3 harg3 arg4 harg4 arg5 harg5 arg6 harg6 arg7 harg7 arg8 harg8 hc0 hc1 x0 x1 xs0 xs1 xs2 = upd (valC x0) xs2 := by
  unfold sout0_C_2
  rw [View.read_writes_eq_canon _ _ _ (scover0_C_2 c i arg1 harg1 arg2 harg2 arg3 harg3 arg4 harg4 arg5 harg5 arg6 harg6 arg7 harg7 arg8 harg8 hc0 hc1 x0 x1 xs0 xs1 xs2)]
  unfold kernelRun0_C
  read_pieces

theorem out_P (hc0 : ¬cond0_0 i) (hc1 : cond0_1 i) :
    out0_C_2 (F := F) c i arg1 harg1 arg2 harg2 arg3 harg3 arg4 harg4 arg5 harg5 arg6 harg6 arg7 harg7 arg8 harg8 hc0 hc1 x0 x1 xs0 xs1 xs2 = upd (valP x0) xs0 := by
  unfold out0_C_2
  rw [View.read_writes_eq_canon _ _ _ (cover0_C_2 c i arg1 harg1 arg2 harg2 arg3 harg3 arg4 harg4 arg5 harg5 arg6 harg6 arg7 harg7 arg8 harg8 hc0 hc1 x0 x1 xs0 xs1 xs2)]
  unfold kernelRun0_C
  read_pieces

theorem out_T (hc0 : ¬cond0_0 i) (hc1 : cond0_1 i) :
    out0_C_3 (F := F) c i arg1 harg1 arg2 harg2 arg3 harg3 arg4 harg4 arg5 harg5 arg6 harg6 arg7 harg7 arg8 harg8 hc0 hc1 x0 x1 xs0 xs1 xs2 = upd (valT x0 x1) xs1 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 xs0 xs1 xs2)]
  unfold kernelRun0_C
  read_pieces

theorem out_C (hc0 : ¬cond0_0 i) (hc1 : cond0_1 i) :
    out0_C_4 (F := F) c i arg1 harg1 arg2 harg2 arg3 harg3 arg4 harg4 arg5 harg5 arg6 harg6 arg7 harg7 arg8 harg8 hc0 hc1 x0 x1 xs0 xs1 xs2 = upd (valC x0) xs2 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 xs0 xs1 xs2)]
  unfold kernelRun0_C
  read_pieces

end Cert.KernelIdeal.KValue

end
-- ==== Proof.Accum.lean ====
/-
  The three accumulator rows point by point. After the first grid point each row is the fifteen updates of the zero
  row by the first block; after every later point, the fifteen updates by that point's block of what the point before
  left. At the last point each output row receives its accumulator. Stated at any float instance.
-/
import proofs.«156423_j2207613190488_1_alg».proof.Proof.Pieces

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The block of logits, and of labels, that the pipeline stages at grid point `t`. -/
abbrev xblk (c : Dev nD) (t : Fin cfg0.N) : Vec F S4096x128 .f32 := iblk m c 0 t
abbrev lblk (c : Dev nD) (t : Fin cfg0.N) : Vec F S4096x128 .i32 := iblk m c 1 t

/-- The accumulator rows (probabilities, labels, counts) after grid point `n`. -/
def rows (c : Dev nD) : (n : ℕ) → n < cfg0.N → FVec F S1x128 .f32 × FVec F S1x128 .f32 × FVec F S1x128 .f32
  | 0, h => (upd (valP (xblk m c ⟨0, h⟩)) zeroRow, upd (valT (xblk m c ⟨0, h⟩) (lblk m c ⟨0, h⟩)) zeroRow,
      upd (valC (xblk m c ⟨0, h⟩)) zeroRow)
  | n + 1, h => (upd (valP (xblk m c ⟨n + 1, h⟩)) (rows c n (Nat.lt_of_succ_lt h)).1,
      upd (valT (xblk m c ⟨n + 1, h⟩) (lblk m c ⟨n + 1, h⟩)) (rows c n (Nat.lt_of_succ_lt h)).2.1,
      upd (valC (xblk m c ⟨n + 1, h⟩)) (rows c n (Nat.lt_of_succ_lt h)).2.2)

theorem rows_zero (c : Dev nD) (h : 0 < cfg0.N) :
    rows m c 0 h = (upd (valP (xblk m c ⟨0, h⟩)) zeroRow, upd (valT (xblk m c ⟨0, h⟩) (lblk m c ⟨0, h⟩)) zeroRow,
      upd (valC (xblk m c ⟨0, h⟩)) zeroRow) := rfl

theorem rows_succ (c : Dev nD) (n : ℕ) (h : n + 1 < cfg0.N) :
    rows m c (n + 1) h = (upd (valP (xblk m c ⟨n + 1, h⟩)) (rows m c n (Nat.lt_of_succ_lt h)).1,
      upd (valT (xblk m c ⟨n + 1, h⟩) (lblk m c ⟨n + 1, h⟩)) (rows m c n (Nat.lt_of_succ_lt h)).2.1,
      upd (valC (xblk m c ⟨n + 1, h⟩)) (rows m c n (Nat.lt_of_succ_lt h)).2.2) := rfl

/-- The grid has 64 points. -/
theorem gridN : cfg0.N = 64 := N_0

/-- The carried rows after every grid point are the accumulator rows. -/
theorem scratch_eq (c : Dev nD) : ∀ (n : ℕ) (h : n < cfg0.N),
    (outsAt0 m c n h).2.2.2.1 = (rows m c n h).1 ∧ (outsAt0 m c n h).2.2.2.2.1 = (rows m c n h).2.1
      ∧ (outsAt0 m c n h).2.2.2.2.2 = (rows m c n h).2.2
  | 0, h => by
    rw [show outsAt0 m c 0 h = _ from outsAt0_A m c ⟨0, h⟩ (Nat.zero_mod _) (by show ¬(0 % 64 = 63); decide), rows_zero]
    dsimp only
    exact ⟨first_P c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) (iblk m c 0 ⟨0, h⟩) (iblk m c 1 ⟨0, h⟩) _ _, first_T c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) (iblk m c 0 ⟨0, h⟩) (iblk m c 1 ⟨0, h⟩) _ _, first_C c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) (iblk m c 0 ⟨0, h⟩) (iblk m c 1 ⟨0, h⟩) _ _⟩
  | n + 1, h => by
    have hN : n + 1 < 64 := lt_of_lt_of_eq h gridN
    have h0 : ¬(n + 1) % 64 = 0 := by omega
    obtain ⟨e0, e1, e2⟩ := scratch_eq c n (Nat.lt_of_succ_lt h)
    by_cases h1 : (n + 1) % 64 = 63
    · rw [show outsAt0 m c (n + 1) h = _ from outsAt0_C m c ⟨n + 1, h⟩ h0 h1, rows_succ]
      dsimp only
      refine ⟨?_, ?_, ?_⟩
      · rw [last_P c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩)]; exact congrArg (upd (valP _)) e0
      · rw [last_T c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩)]; exact congrArg (upd (valT _ _)) e1
      · rw [last_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩)]; exact congrArg (upd (valC _)) e2
    · rw [show outsAt0 m c (n + 1) h = _ from outsAt0_B m c ⟨n + 1, h⟩ h0 h1, rows_succ]
      dsimp only
      refine ⟨?_, ?_, ?_⟩
      · rw [mid_P c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩)]; exact congrArg (upd (valP _)) e0
      · rw [mid_T c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩)]; exact congrArg (upd (valT _ _)) e1
      · rw [mid_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩)]; exact congrArg (upd (valC _)) e2

/-- At the last grid point the output rows receive the accumulator rows. -/
theorem outputs_eq (c : Dev nD) (n : ℕ) (h : n + 1 < cfg0.N) (h1 : (n + 1) % 64 = 63) :
    (outsAt0 m c (n + 1) h).1 = (rows m c (n + 1) h).1 ∧ (outsAt0 m c (n + 1) h).2.1 = (rows m c (n + 1) h).2.1
      ∧ (outsAt0 m c (n + 1) h).2.2.1 = (rows m c (n + 1) h).2.2 := by
  have hN : n + 1 < 64 := lt_of_lt_of_eq h gridN
  have h0 : ¬(n + 1) % 64 = 0 := by omega
  obtain ⟨e0, e1, e2⟩ := scratch_eq m c n (Nat.lt_of_succ_lt h)
  rw [show outsAt0 m c (n + 1) h = _ from outsAt0_C m c ⟨n + 1, h⟩ h0 h1, rows_succ]
  dsimp only
  refine ⟨?_, ?_, ?_⟩
  · rw [out_P c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩)]; exact congrArg (upd (valP _)) e0
  · rw [out_T c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩)]; exact congrArg (upd (valT _ _)) e1
  · rw [out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩)]; exact congrArg (upd (valC _)) e2

end Cert.KernelIdeal.KValue

end
-- ==== Proof.Final.lean ====
/-
  The three output arrays after the run. Each output window is its whole one-row array, and the pipeline writes it
  back at the last grid point only; so each array ends holding its accumulator row after the last point.
-/
import proofs.«156423_j2207613190488_1_alg».proof.Proof.Accum

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The last grid point is a grid point. -/
theorem last_lt : 63 < cfg0.N := by rw [gridN]; decide

/-- The accumulator rows after the last grid point. -/
def accP (c : Dev nD) : FVec F S1x128 .f32 := (rows m c 63 last_lt).1
def accT (c : Dev nD) : FVec F S1x128 .f32 := (rows m c 63 last_lt).2.1
def accC (c : Dev nD) : FVec F S1x128 .f32 := (rows m c 63 last_lt).2.2

/-- The output windows' index maps are constant at block (0, 0), and the pipeline writes an output back at the last
    grid point and nowhere else: decided over the grid. -/
theorem out_index : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)
theorem flush_last : ∀ t : Fin cfg0.N, ((cfg0.win 2).flush t = true ↔ t.val = 63)
    ∧ ((cfg0.win 3).flush t = true ↔ t.val = 63) ∧ ((cfg0.win 4).flush t = true ↔ t.val = 63) :=
  (by decide +kernel : ∀ t : Fin grid0.N, _)

/-- What the last grid point writes back to the first output is the probabilities' accumulator row, read through
    the window's block (the whole array). -/
theorem flushed_P (c : Dev nD) (t : Fin cfg0.N) (hf : (cfg0.win 2).flush t = true) :
    (dats m 0 c).flushed 2 t = ((cfg0.win 2).blk t).view.read (Elt F) (accP m c) := by
  have ht : t.val = 63 := (flush_last t).1.mp hf
  obtain ⟨n, hn⟩ := t
  obtain rfl : n = 63 := ht
  show (cfg0.win 2).cut (grid0.coords ⟨63, hn⟩) ((dats m 0 c).after 2 ⟨63, hn⟩) = _
  rw [after0_2]
  rw [(outputs_eq m c 62 hn (by decide)).1]
  obtain ⟨e0, e1, -⟩ := out_index ⟨63, hn⟩
  funext j
  show (rows m c 63 hn).1 j = accP m c (((cfg0.win 2).blk ⟨63, hn⟩).view.emb j)
  refine congrArg (rows m c 63 hn).1 (funext fun a => Fin.ext ?_)
  match a with
  | ⟨0, _⟩ => show (j 0).val = win0_2.index ⟨63, hn⟩ (0 : Fin 2) * 1 + 1 * (j 0).val; omega
  | ⟨1, _⟩ => show (j 1).val = win0_2.index ⟨63, hn⟩ (1 : Fin 2) * 128 + 1 * (j 1).val; omega

/-- The same for the labels' and the counts' outputs. -/
theorem flushed_T (c : Dev nD) (t : Fin cfg0.N) (hf : (cfg0.win 3).flush t = true) :
    (dats m 0 c).flushed 3 t = ((cfg0.win 3).blk t).view.read (Elt F) (accT m c) := by
  have ht : t.val = 63 := (flush_last t).2.1.mp hf
  obtain ⟨n, hn⟩ := t
  obtain rfl : n = 63 := ht
  show (cfg0.win 3).cut (grid0.coords ⟨63, hn⟩) ((dats m 0 c).after 3 ⟨63, hn⟩) = _
  rw [after0_3]
  rw [(outputs_eq m c 62 hn (by decide)).2.1]
  obtain ⟨-, -, e0, e1, -⟩ := out_index ⟨63, hn⟩
  funext j
  show (rows m c 63 hn).2.1 j = accT m c (((cfg0.win 3).blk ⟨63, hn⟩).view.emb j)
  refine congrArg (rows m c 63 hn).2.1 (funext fun a => Fin.ext ?_)
  match a with
  | ⟨0, _⟩ => show (j 0).val = win0_3.index ⟨63, hn⟩ (0 : Fin 2) * 1 + 1 * (j 0).val; omega
  | ⟨1, _⟩ => show (j 1).val = win0_3.index ⟨63, hn⟩ (1 : Fin 2) * 128 + 1 * (j 1).val; omega

theorem flushed_C (c : Dev nD) (t : Fin cfg0.N) (hf : (cfg0.win 4).flush t = true) :
    (dats m 0 c).flushed 4 t = ((cfg0.win 4).blk t).view.read (Elt F) (accC m c) := by
  have ht : t.val = 63 := (flush_last t).2.2.mp hf
  obtain ⟨n, hn⟩ := t
  obtain rfl : n = 63 := ht
  show (cfg0.win 4).cut (grid0.coords ⟨63, hn⟩) ((dats m 0 c).after 4 ⟨63, hn⟩) = _
  rw [after0_4]
  rw [(outputs_eq m c 62 hn (by decide)).2.2]
  obtain ⟨-, -, -, -, e0, e1⟩ := out_index ⟨63, hn⟩
  funext j
  show (rows m c 63 hn).2.2 j = accC m c (((cfg0.win 4).blk ⟨63, hn⟩).view.emb j)
  refine congrArg (rows m c 63 hn).2.2 (funext fun a => Fin.ext ?_)
  match a with
  | ⟨0, _⟩ => show (j 0).val = win0_4.index ⟨63, hn⟩ (0 : Fin 2) * 1 + 1 * (j 0).val; omega
  | ⟨1, _⟩ => show (j 1).val = win0_4.index ⟨63, hn⟩ (1 : Fin 2) * 128 + 1 * (j 1).val; omega

/-- Every index of an output array lies in the block the last grid point writes back. -/
theorem cover_P (i : S1x128.Idx) : ∃ t : Fin cfg0.N, (cfg0.win 2).flush t = true ∧ i ∈ ((cfg0.win 2).blk t).view.set := by
  refine ⟨⟨63, last_lt⟩, (flush_last ⟨63, last_lt⟩).1.mpr rfl, ?_⟩
  obtain ⟨e0, e1, -⟩ := out_index ⟨63, last_lt⟩
  have h0 : (i 0).val < 1 := (i 0).isLt
  have h1 : (i 1).val < 128 := (i 1).isLt
  show i ∈ ((View.whole main_v2_0).slice (win0_2.rect ⟨63, last_lt⟩)).set
  rw [View.set_slice_whole, Rect.mem_set_unit]
  intro a
  match a with
  | ⟨0, _⟩ => show win0_2.index ⟨63, last_lt⟩ (0 : Fin 2) * 1 ≤ (i 0).val ∧ (i 0).val < win0_2.index ⟨63, last_lt⟩ (0 : Fin 2) * 1 + 1; omega
  | ⟨1, _⟩ => show win0_2.index ⟨63, last_lt⟩ (1 : Fin 2) * 128 ≤ (i 1).val ∧ (i 1).val < win0_2.index ⟨63, last_lt⟩ (1 : Fin 2) * 128 + 128; omega

theorem cover_T (i : S1x128.Idx) : ∃ t : Fin cfg0.N, (cfg0.win 3).flush t = true ∧ i ∈ ((cfg0.win 3).blk t).view.set := by
  refine ⟨⟨63, last_lt⟩, (flush_last ⟨63, last_lt⟩).2.1.mpr rfl, ?_⟩
  obtain ⟨-, -, e0, e1, -⟩ := out_index ⟨63, last_lt⟩
  have h0 : (i 0).val < 1 := (i 0).isLt
  have h1 : (i 1).val < 128 := (i 1).isLt
  show i ∈ ((View.whole main_v2_1).slice (win0_3.rect ⟨63, last_lt⟩)).set
  rw [View.set_slice_whole, Rect.mem_set_unit]
  intro a
  match a with
  | ⟨0, _⟩ => show win0_3.index ⟨63, last_lt⟩ (0 : Fin 2) * 1 ≤ (i 0).val ∧ (i 0).val < win0_3.index ⟨63, last_lt⟩ (0 : Fin 2) * 1 + 1; omega
  | ⟨1, _⟩ => show win0_3.index ⟨63, last_lt⟩ (1 : Fin 2) * 128 ≤ (i 1).val ∧ (i 1).val < win0_3.index ⟨63, last_lt⟩ (1 : Fin 2) * 128 + 128; omega

theorem cover_C (i : S1x128.Idx) : ∃ t : Fin cfg0.N, (cfg0.win 4).flush t = true ∧ i ∈ ((cfg0.win 4).blk t).view.set := by
  refine ⟨⟨63, last_lt⟩, (flush_last ⟨63, last_lt⟩).2.2.mpr rfl, ?_⟩
  obtain ⟨-, -, -, -, e0, e1⟩ := out_index ⟨63, last_lt⟩
  have h0 : (i 0).val < 1 := (i 0).isLt
  have h1 : (i 1).val < 128 := (i 1).isLt
  show i ∈ ((View.whole main_v2_2).slice (win0_4.rect ⟨63, last_lt⟩)).set
  rw [View.set_slice_whole, Rect.mem_set_unit]
  intro a
  match a with
  | ⟨0, _⟩ => show win0_4.index ⟨63, last_lt⟩ (0 : Fin 2) * 1 ≤ (i 0).val ∧ (i 0).val < win0_4.index ⟨63, last_lt⟩ (0 : Fin 2) * 1 + 1; omega
  | ⟨1, _⟩ => show win0_4.index ⟨63, last_lt⟩ (1 : Fin 2) * 128 ≤ (i 1).val ∧ (i 1).val < win0_4.index ⟨63, last_lt⟩ (1 : Fin 2) * 128 + 128; omega

/-- The three output arrays after the run: the accumulator rows after the last grid point. -/
theorem final_P (c : Dev nD) : (dats m 0 c).arrAt 2 cfg0.N = accP m c :=
  (dats m 0 c).arrAt_eq_of_cover 2 (accP m c) (fun t hf => flushed_P m c t hf) cover_P
theorem final_T (c : Dev nD) : (dats m 0 c).arrAt 3 cfg0.N = accT m c :=
  (dats m 0 c).arrAt_eq_of_cover 3 (accT m c) (fun t hf => flushed_T m c t hf) cover_T
theorem final_C (c : Dev nD) : (dats m 0 c).arrAt 4 cfg0.N = accC m c :=
  (dats m 0 c).arrAt_eq_of_cover 4 (accC m c) (fun t hf => flushed_C m c t hf) cover_C

end Cert.KernelIdeal.KValue

end
-- ==== Proof.Spec.lean ====
/-
  Expected calibration error over fifteen equal-width confidence bins, as one function of the two argument
  arrays (the logits and the 0/1 labels, 2^25 entries each), at the exact instance.

  A logit `x` has probability `p(x) = 1 / (1 + e^(-x))` and bin `clip(⌈15 · p(x)⌉ − 1, 0, 14)`. For each bin
  `b` three sums run over the entries whose bin is `b`: of the probabilities, of the labels, and of ones (the
  count). From the three fifteen-entry arrays the result is
  `∑_b [count_b > 0] · |sumP_b / max(count_b, 1) − sumT_b / max(count_b, 1)| · (count_b / 2^25)`.
-/
import Idealize.ShloMosaic.PureOps.Ideal
import Idealize.ShloMosaic.PureOps.Contract
import Idealize.ShloMosaic.PureOps.Vector
import Idealize.ShloMosaic.Lib.ValueIdx
import Idealize.ShloMosaic.Lib.IdealHost

noncomputable section

open Idealize.ShloMosaic

namespace Cert.Calibration

/-- The shape of a fifteen-entry array (one entry per bin) and of a scalar. -/
abbrev Bins : Shape := ⟨1, ![15]⟩
abbrev Scal : Shape := ⟨0, ![]⟩

/-- The probability of a logit: the logistic function. -/
def prob (x : Ideal .f32) : Ideal .f32 := FloatOps.logistic x

/-- The bin of a logit, a 32-bit word: `⌈15 · p(x)⌉ − 1` clipped to `[0, 14]`. -/
def bin (x : Ideal .f32) : BitVec 32 :=
  IntOp.minsi 14#32 (IntOp.maxsi 0#32 (IntOp.subi
    (FloatOps.fptosi 32 (FloatOps.ceil (FloatOps.mulf (prob x) (FloatOps.ofBits (F := Ideal) .f32 0x41700000#32)))) 1#32))

/-- A label as a number. -/
def lab (t : BitVec 32) : Ideal .f32 := FloatOps.sitofp .f32 t

/-- Bin `b`'s sum of `v` over a finite family of logits: the entries whose bin is `b` contribute `v j`. -/
def binSum {ι : Type} [Fintype ι] (x : ι → Ideal .f32) (v : ι → Ideal .f32) (b : BitVec 32) : Ideal .f32 :=
  ∑ j, if bin (x j) = b then v j else 0

/-- The three per-bin arrays over the whole input. -/
def sumP {ι : Type} [Fintype ι] (x : ι → Ideal .f32) : FVec Ideal Bins .f32 :=
  fun i => binSum x (fun j => prob (x j)) (BitVec.ofNat 32 (i 0).val)
def sumT {ι : Type} [Fintype ι] (x : ι → Ideal .f32) (t : ι → BitVec 32) : FVec Ideal Bins .f32 :=
  fun i => binSum x (fun j => lab (t j)) (BitVec.ofNat 32 (i 0).val)
def count {ι : Type} [Fintype ι] (x : ι → Ideal .f32) : FVec Ideal Bins .f32 :=
  fun i => binSum x (fun _ => 1) (BitVec.ofNat 32 (i 0).val)

/-- The calibration error from the three per-bin arrays, in the host's operations. -/
def ece (hb : Scal.BroadcastsInDim Bins ![]) (hr : Bins.ReducesTo [0] Scal) (hs : 0 < Scal.numel)
    (sp st cnt : FVec Ideal Bins .f32) : FVec Ideal Scal .f32 :=
  let one : FVec Ideal Bins .f32 := broadcastInDim Bins ![] hb (constant (F := Ideal) Scal .f32 0x3F800000#32)
  let total : FVec Ideal Bins .f32 := broadcastInDim Bins ![] hb (constant (F := Ideal) Scal .f32 0x4C000000#32)
  let zero : FVec Ideal Bins .f32 := broadcastInDim Bins ![] hb (constant (F := Ideal) Scal .f32 0x00000000#32)
  let safe := maximumf cnt one
  let gap := Host.absf (subf (Host.divf sp safe) (Host.divf st safe))
  let term := mulf gap (Host.divf cnt total)
  Host.reduceAdd (select (cmpf .ogt cnt zero) term zero) (constant (F := Ideal) Scal .f32 0x00000000#32) hr hs

end Cert.Calibration

end
-- ==== Proof.KStepIdeal.lean ====
/-
  One grid point's fifteen updates read at the exact instance, lane by lane. The total of a block-shaped vector is the
  sum of its entries; the one-hot row of bin `b` is one at lane `b` and zero elsewhere; `0 · x = 0` and `1 · x = x` on
  the extended reals, so at a lane `l < 15` the fifteen updates add exactly bin `l`'s total and nothing else. The three
  vectors a block contributes to a bin sum, over the block, to the block's per-bin sums of the specification.
-/
import proofs.«156423_j2207613190488_1_alg».proof.Proof.KStep
import proofs.«156423_j2207613190488_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.KValue

open Cert.KernelIdeal Cert.KernelIdeal.Gen Cert.Calibration
open Idealize.ShloMosaic Idealize.ShloMosaic.ValueIdx

/-- Inserting lane `k` into the row index `a` gives the block index `(a, k)`. -/
theorem lift_lane (a : Fin 4096) (k : Fin 128) :
    reduces_S4096x128_S4096.lift (ix1 a) k = ix2 a k := by
  funext d
  match d with
  | ⟨0, _⟩ => rfl
  | ⟨1, _⟩ => rfl

/-- The lane reduction at row `a` is the sum over the row's lanes. -/
theorem laneSum_apply (v : FVec Ideal S4096x128 .f32) (a : Fin 4096) :
    multiReduction .add [1] S4096 v 0x00000000#32 reduces_S4096x128_S4096 (.inl rfl) rfl (ix1 a)
      = ∑ k : Fin 128, v (ix2 a k) := by
  refine (Ideal.multiReduction_add_single v _ reduces_S4096x128_S4096 _ _ (ix1 a)).trans ?_
  exact Finset.sum_congr rfl fun k _ => congrArg v (lift_lane a k)

/-- The block total, at any lane, is the sum of the vector's entries. -/
theorem totalV_apply (v : FVec Ideal S4096x128 .f32) (y : S1x128.Idx) :
    totalV (F := Ideal) v y = ∑ j : S4096x128.Idx, v j := by
  unfold totalV
  rw [broadcastTo_apply _ broadcasts_S1x1_S1x128 y (ix2 (0 : Fin 1) (0 : Fin 1))
    (fun a => match a with | ⟨0, _⟩ => rfl | ⟨1, _⟩ => rfl)]
  rw [shapeCast_apply _ shapeCasts_S1_S1x1 (ix2 (0 : Fin 1) (0 : Fin 1)) (ix1 (0 : Fin 1))
    (by rw [Shape.rowMajor_val_one, Shape.rowMajor_val_two]; rfl)]
  refine (Ideal.multiReduction_add_total _ _ reduces_S4096x1_S1 (fun b => match b with | ⟨0, _⟩ => rfl) _ _ _).trans ?_
  rw [sum_idx2, sum_idx2]
  refine Finset.sum_congr rfl fun a _ => ?_
  rw [Fintype.sum_unique]
  rw [shapeCast_apply _ shapeCasts_S4096_S4096x1 (ix2 a (default : Fin 1)) (ix1 a)
    (by rw [Shape.rowMajor_val_one, Shape.rowMajor_val_two]; show a.val = a.val * 1 + 0; omega)]
  exact laneSum_apply v a

/-- The zero row is zero. -/
theorem zeroRow_apply (y : S1x128.Idx) : zeroRow (F := Ideal) y = 0 := by
  unfold zeroRow
  rw [shapeCast_self, broadcast_apply]
  exact Ideal.ofBits_zero_f32

/-- A widened truth bit, read as a number, is one or zero. -/
theorem sitofp_bit (c : Bool) :
    (FloatOps.sitofp .f32 ((BitVec.ofBool c).setWidth 32) : Ideal .f32) = if c = true then 1 else 0 := by
  cases c
  · show ((((BitVec.ofBool false).setWidth 32).toInt : ℝ) : EReal) = _
    rw [show ((BitVec.ofBool false).setWidth 32).toInt = 0 from by decide]
    simp
  · show ((((BitVec.ofBool true).setWidth 32).toInt : ℝ) : EReal) = _
    rw [show ((BitVec.ofBool true).setWidth 32).toInt = 1 from by decide]
    simp

/-- The one-hot row of `b` is one where the lane's word is `b` and zero elsewhere. -/
theorem onehotV_apply (b : BitVec 32) (y : S1x128.Idx) :
    onehotV (F := Ideal) b y = if BitVec.ofNat 32 (y 1).val = b then 1 else 0 := by
  unfold onehotV
  rw [sitofp_apply, extui_apply]
  show (FloatOps.sitofp .f32 ((IntOp.cmpi .eq (iota .tc S1x128 32 [1] iota_S1x128_d1_w32 y) b).setWidth 32) : Ideal .f32) = _
  rw [iota_single_apply]
  show (FloatOps.sitofp .f32 ((BitVec.ofBool (BitVec.ofNat 32 (y 1).val == b)).setWidth 32) : Ideal .f32) = _
  rw [sitofp_bit]
  simp only [beq_iff_eq]

/-- One bin's update at a lane: the accumulator plus the one-hot entry times the block total. -/
theorem stepV_apply (b : BitVec 32) (v : FVec Ideal S4096x128 .f32) (acc : FVec Ideal S1x128 .f32) (y : S1x128.Idx) :
    stepV (F := Ideal) b v acc y = acc y + onehotV (F := Ideal) b y * ∑ j : S4096x128.Idx, v j := by
  unfold stepV
  rw [shapeCast_self, addf_apply, mulf_apply, totalV_apply]

/-- The first `n` updates at a lane: the accumulator plus each bin's one-hot entry times its total. -/
theorem fold_lane (val : BitVec 32 → FVec Ideal S4096x128 .f32) (y : S1x128.Idx) (n : Nat) (acc : FVec Ideal S1x128 .f32) :
    (List.range n).foldl (fun a b => stepV (F := Ideal) (BitVec.ofNat 32 b) (val (BitVec.ofNat 32 b)) a) acc y
      = acc y + ∑ b ∈ Finset.range n,
          onehotV (F := Ideal) (BitVec.ofNat 32 b) y * ∑ j : S4096x128.Idx, val (BitVec.ofNat 32 b) j := by
  induction n with
  | zero => simp
  | succ n ih =>
    rw [List.range_succ, List.foldl_append, List.foldl_cons, List.foldl_nil, stepV_apply, ih,
      Finset.sum_range_succ, add_assoc]

/-- Two naturals below `2^32` with the same 32-bit word are equal. -/
theorem ofNat32_inj {l b : Nat} (hl : l < 2 ^ 32) (hb : b < 2 ^ 32) (h : BitVec.ofNat 32 l = BitVec.ofNat 32 b) : l = b := by
  have := congrArg BitVec.toNat h
  rw [BitVec.toNat_ofNat, BitVec.toNat_ofNat, Nat.mod_eq_of_lt hl, Nat.mod_eq_of_lt hb] at this
  exact this

/-- At a lane `l < 15` the fifteen updates add bin `l`'s total. -/
theorem upd_lane (val : BitVec 32 → FVec Ideal S4096x128 .f32) (acc : FVec Ideal S1x128 .f32) (y : S1x128.Idx)
    (hy : (y 1).val < 15) :
    upd (F := Ideal) val acc y = acc y + ∑ j : S4096x128.Idx, val (BitVec.ofNat 32 (y 1).val) j := by
  unfold upd
  rw [fold_lane]
  congr 1
  rw [Finset.sum_eq_single (y 1).val]
  · rw [onehotV_apply, if_pos rfl, one_mul]
  · intro b hb hne
    have hb15 : b < 15 := Finset.mem_range.mp hb
    rw [onehotV_apply, if_neg (fun h => hne (ofNat32_inj (by omega) (by omega) h).symm), zero_mul]
  · intro h
    exact absurd (Finset.mem_range.mpr hy) h

/-- A block's probabilities, entry by entry. -/
theorem probsV_apply (x0 : Vec Ideal S4096x128 .f32) (j : S4096x128.Idx) :
    probsV (F := Ideal) x0 j = prob (x0 j) := by
  unfold probsV
  rw [shapeCast_self]
  rfl

/-- A block's bins, entry by entry. -/
theorem binsV_apply (x0 : Vec Ideal S4096x128 .f32) (j : S4096x128.Idx) :
    binsV (F := Ideal) x0 j = bin (x0 j) := by
  show IntOp.minsi 14#32 (IntOp.maxsi 0#32 (IntOp.subi
    (FloatOps.fptosi 32 (FloatOps.ceil (FloatOps.mulf (probsV (F := Ideal) x0 j) (FloatOps.ofBits (F := Ideal) .f32 0x41700000#32)))) 1#32)) = _
  rw [probsV_apply]
  rfl

/-- A block's labels, entry by entry. -/
theorem labsV_apply (x1 : Vec Ideal S4096x128 .i32) (j : S4096x128.Idx) :
    labsV (F := Ideal) x1 j = lab (x1 j) := by
  unfold labsV
  rw [shapeCast_self]
  rfl

/-- The mask of bin `b`, entry by entry. -/
theorem maskV_apply (x0 : Vec Ideal S4096x128 .f32) (b : BitVec 32) (j : S4096x128.Idx) :
    maskV (F := Ideal) x0 b j = BitVec.ofBool (bin (x0 j) == b) := by
  show IntOp.cmpi .eq (binsV (F := Ideal) x0 j) b = _
  rw [binsV_apply]
  rfl

/-- A select on a truth bit is the `if`. -/
theorem select_ofBool {α : Type} (c : Bool) (a z : α) : Scalar.select (BitVec.ofBool c) a z = if c = true then a else z := by
  cases c
  · exact select_zero a z
  · exact select_one a z

/-- The block's probabilities where the bin is `b`, summed: the block's per-bin sum of probabilities. -/
theorem sum_valP (x0 : Vec Ideal S4096x128 .f32) (b : BitVec 32) :
    ∑ j : S4096x128.Idx, valP (F := Ideal) x0 b j = binSum x0 (fun j => prob (x0 j)) b := by
  unfold binSum
  refine Finset.sum_congr rfl fun j _ => ?_
  unfold valP
  rw [select_apply, maskV_apply, select_ofBool, probsV_apply, broadcast_apply]
  simp only [beq_iff_eq]
  congr 1
  exact Ideal.ofBits_zero_f32

/-- The block's labels where the bin is `b`, summed. -/
theorem sum_valT (x0 : Vec Ideal S4096x128 .f32) (x1 : Vec Ideal S4096x128 .i32) (b : BitVec 32) :
    ∑ j : S4096x128.Idx, valT (F := Ideal) x0 x1 b j = binSum x0 (fun j => lab (x1 j)) b := by
  unfold binSum
  refine Finset.sum_congr rfl fun j _ => ?_
  unfold valT
  rw [select_apply, maskV_apply, select_ofBool, labsV_apply, broadcast_apply]
  simp only [beq_iff_eq]
  congr 1
  exact Ideal.ofBits_zero_f32

/-- Ones where the bin is `b`, summed: the block's count of bin `b`. -/
theorem sum_valC (x0 : Vec Ideal S4096x128 .f32) (b : BitVec 32) :
    ∑ j : S4096x128.Idx, valC (F := Ideal) x0 b j = binSum x0 (fun _ => 1) b := by
  unfold binSum
  refine Finset.sum_congr rfl fun j _ => ?_
  unfold valC
  rw [sitofp_apply, extui_apply, maskV_apply, sitofp_bit]
  simp only [beq_iff_eq]

end Cert.KernelIdeal.KValue

end
-- ==== Proof.Blocks.lean ====
/-
  The flat array of 2^25 entries read as 64 consecutive blocks of 4096 rows of 128 lanes: entry `(r, l)` of block `s`
  is flat entry `(4096 s + r) · 128 + l`. A sum over the flat positions is the sum over the blocks of the sums over
  each block's positions, so a per-bin sum over the whole input is the sum of the blocks' per-bin sums.
-/
import proofs.«156423_j2207613190488_1_alg».proof.Proof.Spec
import Mathlib.Algebra.BigOperators.Fin
import Mathlib.Logic.Equiv.Fin.Basic

noncomputable section

open Idealize.ShloMosaic Idealize.ShloMosaic.ValueIdx

namespace Cert.Calibration

/-- The shapes of the flat input and of one block. -/
abbrev Flat : Shape := ⟨1, ![33554432]⟩
abbrev Block : Shape := ⟨2, ![4096, 128]⟩

/-- The flat position of entry `y` of block `s`. -/
def flatPos (s : Fin 64) (y : Block.Idx) : Flat.Idx :=
  ix1 (⟨(s.val * 4096 + (y 0).val) * 128 + (y 1).val, by
    have h0 : (y 0).val < 4096 := (y 0).isLt
    have h1 : (y 1).val < 128 := (y 1).isLt
    have hs : s.val < 64 := s.isLt
    show _ < 33554432
    omega⟩ : Fin 33554432)

/-- Block `s` of a flat array. -/
def blockOf {α : Type} (X : Flat.Idx → α) (s : Fin 64) : Block.Idx → α := fun y => X (flatPos s y)

/-- Every flat position is exactly one entry of exactly one block. -/
def blockEquiv : Fin 64 × Block.Idx ≃ Flat.Idx where
  toFun p := flatPos p.1 p.2
  invFun j := (⟨(j 0).val / 524288, by have := (j 0).isLt; show _ < 64; change (j 0).val < 33554432 at this; omega⟩,
    ix2 (⟨(j 0).val / 128 % 4096, by show _ < 4096; omega⟩ : Fin 4096) (⟨(j 0).val % 128, by show _ < 128; omega⟩ : Fin 128))
  left_inv p := by
    obtain ⟨s, y⟩ := p
    have h0 : (y 0).val < 4096 := (y 0).isLt
    have h1 : (y 1).val < 128 := (y 1).isLt
    have hs : s.val < 64 := s.isLt
    refine Prod.ext (Fin.ext ?_) ?_
    · show ((s.val * 4096 + (y 0).val) * 128 + (y 1).val) / 524288 = s.val
      omega
    · rw [eq_ix2 y]
      refine congrArg₂ ix2 (Fin.ext ?_) (Fin.ext ?_)
      · show ((s.val * 4096 + (y 0).val) * 128 + (y 1).val) / 128 % 4096 = (y 0).val
        omega
      · show ((s.val * 4096 + (y 0).val) * 128 + (y 1).val) % 128 = (y 1).val
        omega
  right_inv j := by
    have hj : (j 0).val < 33554432 := (j 0).isLt
    rw [eq_ix1 j]
    refine congrArg ix1 (Fin.ext ?_)
    show ((j 0).val / 524288 * 4096 + (j 0).val / 128 % 4096) * 128 + (j 0).val % 128 = (j 0).val
    omega

/-- A sum over the flat positions, block by block. -/
theorem sum_flat_eq_sum_blocks {M : Type} [AddCommMonoid M] (g : Flat.Idx → M) :
    ∑ j, g j = ∑ s : Fin 64, ∑ y : Block.Idx, g (flatPos s y) := by
  rw [← Fintype.sum_prod_type' (f := fun s y => g (flatPos s y))]
  exact (Equiv.sum_comp blockEquiv g).symm

/-- A per-bin sum over the whole input is the sum of the blocks' per-bin sums. -/
theorem binSum_blocks (X : Flat.Idx → Ideal .f32) (v : Flat.Idx → Ideal .f32) (b : BitVec 32) :
    binSum X v b = ∑ s : Fin 64, binSum (blockOf X s) (blockOf v s) b := by
  unfold binSum
  exact sum_flat_eq_sum_blocks _

end Cert.Calibration

end
-- ==== Proof.Sums.lean ====
/-
  The staged blocks are the consecutive blocks of the flat inputs (the host reshapes each flat array to 262144 rows of
  128 lanes before the kernel, and grid point `t`'s window is rows `4096 t … 4096 t + 4095`); and, at the exact instance,
  an accumulator row read at a lane `l < 15` after grid point `n` is the sum over the points `0 … n` of the blocks'
  per-bin sums at bin `l`.
-/
import proofs.«156423_j2207613190488_1_alg».proof.Proof.Accum
import proofs.«156423_j2207613190488_1_alg».proof.Proof.KStepIdeal
import proofs.«156423_j2207613190488_1_alg».proof.Proof.Blocks

set_option maxRecDepth 16384

noncomputable section

namespace Cert.KernelIdeal.KValue

open Cert.KernelIdeal Cert.KernelIdeal.Gen Cert.Calibration
open Idealize.ShloMosaic Idealize.ShloMosaic.TcCoe Idealize.ShloMosaic.ValueIdx
open Idealize.SL Idealize.SL.Sem

section AnyInstance

variable {F : FTy → Type} [FloatOps F]
variable (m : (ℓ : Loc nD τ sig) → Buf (Elt F) ℓ)

/-- The input windows' index maps: block `(t, 0)` at grid point `t` — decided over the grid. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A grid point as a block number. -/
def blockNo (t : Fin cfg0.N) : Fin 64 := ⟨t.val, lt_of_lt_of_eq t.isLt gridN⟩

/-- The reshaped logits the region finds, and the reshaped labels. -/
theorem logits2d (c : Dev nD) :
    (V m c main_v0 : S262144x128.Idx → F .f32)
      = shapeCast S262144x128 (m ((c.tc : Thread nD τ).loc main_arg0)) shapeCasts_S33554432_S262144x128 := by
  show StableHlo.after (List.flatten [hostOps0]) (fun b => m (c, b)) (Proc.devRef .tc main_v0) = _
  simp only [hostOps0, List.flatten_cons, List.flatten_nil, List.append_nil]
  after_results
  rfl
theorem labels2d (c : Dev nD) :
    (V m c main_v1 : S262144x128.Idx → BitVec 32)
      = shapeCast S262144x128 (m ((c.tc : Thread nD τ).loc main_arg1)) shapeCasts_S33554432_S262144x128 := by
  show StableHlo.after (List.flatten [hostOps0]) (fun b => m (c, b)) (Proc.devRef .tc main_v1) = _
  simp only [hostOps0, List.flatten_cons, List.flatten_nil, List.append_nil]
  after_results
  rfl

/-- Entry `(r, l)` of the reshaped array is flat entry `128 r + l`. -/
theorem reshape_apply {α : Type} (X : S33554432.Idx → α) (r : Fin 262144) (l : Fin 128) :
    shapeCast S262144x128 X shapeCasts_S33554432_S262144x128 (ix2 r l)
      = X (ix1 (⟨r.val * 128 + l.val, by have := r.isLt; have := l.isLt; omega⟩ : Fin 33554432)) :=
  shapeCast_apply X _ (ix2 r l) _ (by
    rw [Shape.rowMajor_val_one, Shape.rowMajor_val_two]
    show r.val * 128 + l.val = r.val * 128 + l.val
    rfl)

/-- The block of logits staged at grid point `t` is block `t` of the flat logits. -/
theorem xblk_eq (c : Dev nD) (t : Fin cfg0.N) :
    xblk m c t = blockOf (m ((c.tc : Thread nD τ).loc main_arg0)) (blockNo t) := by
  obtain ⟨e0, e1, -, -⟩ := in_index t
  funext y
  have h0 : (y 0).val < 4096 := (y 0).isLt
  have h1 : (y 1).val < 128 := (y 1).isLt
  have ht : t.val < 64 := lt_of_lt_of_eq t.isLt gridN
  show V m c main_v0 (((cfg0.win 0).blk t).view.emb y) = _
  have hemb : ((cfg0.win 0).blk t).view.emb y
      = ix2 (⟨t.val * 4096 + (y 0).val, by omega⟩ : Fin 262144) (⟨(y 1).val, h1⟩ : Fin 128) := by
    funext a; apply Fin.ext
    match a with
    | ⟨0, _⟩ => show win0_0.index t (0 : Fin 2) * 4096 + 1 * (y 0).val = t.val * 4096 + (y 0).val; omega
    | ⟨1, _⟩ => show win0_0.index t (1 : Fin 2) * 128 + 1 * (y 1).val = (y 1).val; omega
  rw [hemb, logits2d, reshape_apply]
  rfl

/-- The block of labels staged at grid point `t` is block `t` of the flat labels. -/
theorem lblk_eq (c : Dev nD) (t : Fin cfg0.N) :
    lblk m c t = blockOf (m ((c.tc : Thread nD τ).loc main_arg1)) (blockNo t) := by
  obtain ⟨-, -, e0, e1⟩ := in_index t
  funext y
  have h0 : (y 0).val < 4096 := (y 0).isLt
  have h1 : (y 1).val < 128 := (y 1).isLt
  have ht : t.val < 64 := lt_of_lt_of_eq t.isLt gridN
  show V m c main_v1 (((cfg0.win 1).blk t).view.emb y) = _
  have hemb : ((cfg0.win 1).blk t).view.emb y
      = ix2 (⟨t.val * 4096 + (y 0).val, by omega⟩ : Fin 262144) (⟨(y 1).val, h1⟩ : Fin 128) := by
    funext a; apply Fin.ext
    match a with
    | ⟨0, _⟩ => show win0_1.index t (0 : Fin 2) * 4096 + 1 * (y 0).val = t.val * 4096 + (y 0).val; omega
    | ⟨1, _⟩ => show win0_1.index t (1 : Fin 2) * 128 + 1 * (y 1).val = (y 1).val; omega
  rw [hemb, labels2d, reshape_apply]
  rfl

end AnyInstance

section Exact

variable (m : (ℓ : Loc nD τ sig) → Buf (Elt Ideal) ℓ)

/-- What grid point `s` contributes to bin `b`: its block's per-bin sums of probabilities, of labels and of ones
    (zero past the grid). -/
def contribP (c : Dev nD) (b : BitVec 32) (s : ℕ) : Ideal .f32 :=
  if h : s < cfg0.N then binSum (xblk m c ⟨s, h⟩) (fun j => prob (xblk m c ⟨s, h⟩ j)) b else 0
def contribT (c : Dev nD) (b : BitVec 32) (s : ℕ) : Ideal .f32 :=
  if h : s < cfg0.N then binSum (xblk m c ⟨s, h⟩) (fun j => lab (lblk m c ⟨s, h⟩ j)) b else 0
def contribC (c : Dev nD) (b : BitVec 32) (s : ℕ) : Ideal .f32 :=
  if h : s < cfg0.N then binSum (xblk m c ⟨s, h⟩) (fun _ => 1) b else 0

/-- An accumulator row at a lane `l < 15` after grid point `n`: the contributions of the points `0 … n` to bin `l`. -/
theorem rows_lane (c : Dev nD) (y : S1x128.Idx) (hy : (y 1).val < 15) : ∀ (n : ℕ) (h : n < cfg0.N),
    (rows m c n h).1 y = ∑ s ∈ Finset.range (n + 1), contribP m c (BitVec.ofNat 32 (y 1).val) s
      ∧ (rows m c n h).2.1 y = ∑ s ∈ Finset.range (n + 1), contribT m c (BitVec.ofNat 32 (y 1).val) s
      ∧ (rows m c n h).2.2 y = ∑ s ∈ Finset.range (n + 1), contribC m c (BitVec.ofNat 32 (y 1).val) s
  | 0, h => by
    rw [rows_zero]
    dsimp only
    rw [upd_lane _ _ y hy, upd_lane _ _ y hy, upd_lane _ _ y hy, zeroRow_apply, sum_valP, sum_valT, sum_valC,
      Finset.sum_range_one, Finset.sum_range_one, Finset.sum_range_one, zero_add, zero_add, zero_add]
    unfold contribP contribT contribC
    rw [dif_pos h, dif_pos h, dif_pos h]
    exact ⟨rfl, rfl, rfl⟩
  | n + 1, h => by
    obtain ⟨eP, eT, eC⟩ := rows_lane c y hy n (Nat.lt_of_succ_lt h)
    rw [rows_succ]
    dsimp only
    rw [upd_lane _ _ y hy, upd_lane _ _ y hy, upd_lane _ _ y hy, eP, eT, eC, sum_valP, sum_valT, sum_valC,
      Finset.sum_range_succ _ (n + 1), Finset.sum_range_succ _ (n + 1), Finset.sum_range_succ _ (n + 1)]
    unfold contribP contribT contribC
    rw [dif_pos h, dif_pos h, dif_pos h]
    exact ⟨rfl, rfl, rfl⟩

end Exact

end Cert.KernelIdeal.KValue

end
-- ==== Proof.KernelValue.lean ====
/-
  The idealized kernel's result. After the region the host takes the first fifteen lanes of each output row and forms
  the calibration error from them. At the exact instance lane `l < 15` of an accumulator row after the last grid point
  is the sum over the 64 blocks of the block's per-bin sum at bin `l`, which is the per-bin sum over the whole flat
  input; so the result is the calibration error of the three per-bin arrays of the whole input.
-/
import proofs.«156423_j2207613190488_1_alg».proof.Proof.Final
import proofs.«156423_j2207613190488_1_alg».proof.Proof.Sums
import Idealize.ShloMosaic.Lib.StableHlo.Run

set_option maxRecDepth 16384

noncomputable section

namespace Cert.KernelIdeal.KValue

open Cert.KernelIdeal Cert.KernelIdeal.Gen Cert.Calibration
open Idealize.ShloMosaic Idealize.ShloMosaic.TcCoe Idealize.ShloMosaic.ValueIdx Idealize.ShloMosaic.StableHlo
open Idealize.SL Idealize.SL.Sem

/-- The first fifteen lanes of a row as a fifteen-entry array: the host's slice and reshape. -/
def lanes (R : FVec Ideal S1x128 .f32) : FVec Ideal S15 .f32 :=
  shapeCast S15 (extractStridedSlice S1x15 ![0, 0] R slices_S1x128_S1x15_0_0) shapeCasts_S1x15_S15

/-- Entry `b` of the fifteen-entry array is lane `b` of the row. -/
theorem lanes_apply (R : FVec Ideal S1x128 .f32) (i : S15.Idx) :
    lanes R i = R (ix2 (0 : Fin 1) (⟨(i 0).val, lt_trans (i 0).isLt (by decide)⟩ : Fin 128)) := by
  unfold lanes
  rw [shapeCast_apply _ _ i (ix2 (0 : Fin 1) (⟨(i 0).val, (i 0).isLt⟩ : Fin 15)) (by
    rw [Shape.rowMajor_val_one, Shape.rowMajor_val_two]
    show 0 * 15 + (i 0).val = (i 0).val
    omega)]
  exact extractStridedSlice_apply _ R _ _ _ (fun a => by
    match a with
    | ⟨0, _⟩ => rfl
    | ⟨1, _⟩ => show (i 0).val = 0 + (i 0).val; omega)

set_option maxHeartbeats 2000000 in
/-- The host operations after the region, from any contents of the three output arrays: the calibration error of
    their first fifteen lanes. -/
theorem tail_of (W : Valuation τ sig (Elt Ideal)) :
    StableHlo.after (List.flatten [hostOps1, hostOps1_1, hostOps1_2]) W (Proc.devRef .tc main_v21)
      = ece bcast_S_S15 reducesTo_S15_S_d0 h_S_ (lanes (W (Proc.devRef .tc main_v2_0))) (lanes (W (Proc.devRef .tc main_v2_1)))
          (lanes (W (Proc.devRef .tc main_v2_2))) := by
  simp only [hostOps1, hostOps1_1, hostOps1_2, List.flatten_cons, List.flatten_nil, List.append_nil, List.cons_append, List.nil_append]
  after_results_simp
  rfl

variable (m : (ℓ : Loc nD τ sig) → Buf (Elt Ideal) ℓ) (ρ : Dev nD → PrngReg)

/-- The 64 grid points' contributions to a bin are the 64 blocks' per-bin sums: the per-bin sum of the whole input. -/
theorem contribP_total (c : Dev nD) (b : BitVec 32) :
    ∑ s ∈ Finset.range 64, contribP m c b s
      = binSum (m ((c.tc : Thread nD τ).loc main_arg0)) (fun j => prob (m ((c.tc : Thread nD τ).loc main_arg0) j)) b := by
  refine (Finset.sum_range (contribP m c b)).trans (Eq.trans ?_ (binSum_blocks _ _ b).symm)
  refine Finset.sum_congr rfl fun s _ => ?_
  have hs : s.val < cfg0.N := lt_of_lt_of_eq s.isLt gridN.symm
  unfold contribP
  rw [dif_pos hs, xblk_eq]
  rfl
theorem contribT_total (c : Dev nD) (b : BitVec 32) :
    ∑ s ∈ Finset.range 64, contribT m c b s
      = binSum (m ((c.tc : Thread nD τ).loc main_arg0)) (fun j => lab (m ((c.tc : Thread nD τ).loc main_arg1) j)) b := by
  refine (Finset.sum_range (contribT m c b)).trans (Eq.trans ?_ (binSum_blocks _ _ b).symm)
  refine Finset.sum_congr rfl fun s _ => ?_
  have hs : s.val < cfg0.N := lt_of_lt_of_eq s.isLt gridN.symm
  unfold contribT
  rw [dif_pos hs, xblk_eq, lblk_eq]
  rfl
theorem contribC_total (c : Dev nD) (b : BitVec 32) :
    ∑ s ∈ Finset.range 64, contribC m c b s
      = binSum (m ((c.tc : Thread nD τ).loc main_arg0)) (fun _ => 1) b := by
  refine (Finset.sum_range (contribC m c b)).trans (Eq.trans ?_ (binSum_blocks _ _ b).symm)
  refine Finset.sum_congr rfl fun s _ => ?_
  have hs : s.val < cfg0.N := lt_of_lt_of_eq s.isLt gridN.symm
  unfold contribC
  rw [dif_pos hs, xblk_eq]
  rfl

/-- The first fifteen lanes of the accumulator rows after the last grid point are the three per-bin arrays. -/
theorem lanes_accP (c : Dev nD) : lanes (accP m c) = sumP (m ((c.tc : Thread nD τ).loc main_arg0)) := by
  funext i
  rw [lanes_apply]
  exact ((rows_lane m c _ (i 0).isLt 63 last_lt).1).trans (contribP_total m c _)
theorem lanes_accT (c : Dev nD) :
    lanes (accT m c) = sumT (m ((c.tc : Thread nD τ).loc main_arg0)) (m ((c.tc : Thread nD τ).loc main_arg1)) := by
  funext i
  rw [lanes_apply]
  exact ((rows_lane m c _ (i 0).isLt 63 last_lt).2.1).trans (contribT_total m c _)
theorem lanes_accC (c : Dev nD) : lanes (accC m c) = count (m ((c.tc : Thread nD τ).loc main_arg0)) := by
  funext i
  rw [lanes_apply]
  exact ((rows_lane m c _ (i 0).isLt 63 last_lt).2.2).trans (contribC_total m c _)

/-- The value @main returns, after the run's write-backs and the host operations after the region. -/
theorem result_eq (c : Dev nD) :
    Pipeline.afterTail₀ cfgs (dats m) 0 (V0 m) [hostOps1, hostOps1_1, hostOps1_2] c main_v21
      = ece bcast_S_S15 reducesTo_S15_S_d0 h_S_ (sumP (m ((c.tc : Thread nD τ).loc main_arg0)))
          (sumT (m ((c.tc : Thread nD τ).loc main_arg0)) (m ((c.tc : Thread nD τ).loc main_arg1)))
          (count (m ((c.tc : Thread nD τ).loc main_arg0))) := by
  unfold Pipeline.afterTail₀
  have e2 := Pipeline.withArrays_arr spec0 launch0.win.arr_inj c (V0 m c) (fun w => (dats m 0 c).arrAt w (cfgs 0).N) 2
  have e3 := Pipeline.withArrays_arr spec0 launch0.win.arr_inj c (V0 m c) (fun w => (dats m 0 c).arrAt w (cfgs 0).N) 3
  have e4 := Pipeline.withArrays_arr spec0 launch0.win.arr_inj c (V0 m c) (fun w => (dats m 0 c).arrAt w (cfgs 0).N) 4
  refine (tail_of _).trans ?_
  rw [show Pipeline.withArrays (cfgs 0).spec c (V0 m c) (fun w => (dats m 0 c).arrAt w (cfgs 0).N) (Proc.devRef .tc main_v2_0) = _ from e2,
    show Pipeline.withArrays (cfgs 0).spec c (V0 m c) (fun w => (dats m 0 c).arrAt w (cfgs 0).N) (Proc.devRef .tc main_v2_1) = _ from e3,
    show Pipeline.withArrays (cfgs 0).spec c (V0 m c) (fun w => (dats m 0 c).arrAt w (cfgs 0).N) (Proc.devRef .tc main_v2_2) = _ from e4]
  rw [show (dats m 0 c).arrAt 2 (cfgs 0).N = _ from final_P m c, show (dats m 0 c).arrAt 3 (cfgs 0).N = _ from final_T m c,
    show (dats m 0 c).arrAt 4 (cfgs 0).N = _ from final_C m c, lanes_accP, lanes_accT, lanes_accC]

/-- The idealized kernel runs, ends with the calibration error of the whole input's per-bin arrays in its result,
    and leaves its arguments unchanged. -/
theorem run : θ_run defs (onTc (τ := τ) (main (F := Ideal))) ⟨m, fun _ => 0, ρ⟩ fun r => ∀ c : Dev nD,
      r.2.mem ((c.tc : Thread nD τ).loc main_v21)
          = ece bcast_S_S15 reducesTo_S15_S_d0 h_S_ (sumP (m ((c.tc : Thread nD τ).loc main_arg0)))
              (sumT (m ((c.tc : Thread nD τ).loc main_arg0)) (m ((c.tc : Thread nD τ).loc main_arg1)))
              (count (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v21 (Pipeline.mem_restRefs_of main_v21 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's result, at the exact instance, is the calibration error of the three per-bin arrays of the whole
  input: each `segment_sum` (a scatter that adds update `j` at the index its bin names, into zeros) is, at bin `b`,
  the sum over the entries whose bin is `b`; the operations after the three scatters are the calibration error's.
-/
import proofs.«156423_j2207613190488_1_alg».proof.Proof.RefRead
import proofs.«156423_j2207613190488_1_alg».proof.Proof.Spec
import Idealize.ShloMosaic.Lib.ValueIdx
import Idealize.ShloMosaic.Lib.IdealHost
import Idealize.ShloMosaic.Lib.Pipeline.Value

noncomputable section

open Idealize.ShloMosaic Idealize.ShloMosaic.ValueIdx

namespace Cert.ReferenceIdeal.RefValue

open Cert.ReferenceIdeal Cert.ReferenceIdeal.Gen Cert.ReferenceIdeal.ReadP Cert.Calibration

/-! ## The elementwise stages -/

/-- The quotient `1 / (1 + e^(-x))` the program spells out is the logistic function: its two constants are the real one. -/
theorem probs_read (x0 : FVec Ideal S33554432 .f32) (j : S33554432.Idx) :
    val_main_v5 (F := Ideal) x0 j = prob (x0 j) := by
  rw [val_main_v5_apply, val_main_v4_apply, val_main_cst_0_apply, val_main_v3_apply, val_main_v2_apply,
    val_main_cst_apply, val_main_v1_apply, val_main_v0_apply]
  show FloatOps.hostDivf (Ideal.ofBits .f32 0x3F800000#32)
      (FloatOps.addf (Ideal.ofBits .f32 0x3F800000#32) (FloatOps.hostUnary .exp (FloatOps.hostNegf (x0 j)))) = _
  rw [Ideal.ofBits_one_f32]
  rfl

/-- The stage before the scatters' index broadcast is the bin of each logit. -/
theorem bins_apply (x0 : FVec Ideal S33554432 .f32) (j : S33554432.Idx) :
    val_main_v13 (F := Ideal) x0 j = bin (x0 j) := by
  rw [val_main_v13_apply, val_main_call0_v4_apply, val_main_call0_v3_apply, val_main_c_3_apply,
    val_main_call0_v2_apply, val_main_call0_v1_apply, val_main_call0_v0_apply, val_main_c_2_apply,
    val_main_v12_apply, val_main_v11_apply, val_main_c_apply, val_main_v10_apply, val_main_v9_apply,
    val_main_v8_apply, val_main_v7_apply, val_main_cst_1_apply, probs_read]
  rfl

/-- The probabilities the first scatter adds are the logistic function of the logits. -/
theorem probs_apply (x0 : FVec Ideal S33554432 .f32) (j : S33554432.Idx) :
    val_main_v5 (F := Ideal) x0 j = prob (x0 j) :=
  probs_read x0 j

/-- The update the third scatter adds is one at every entry. -/
theorem ones_apply (j : S33554432.Idx) : val_main_v20 (F := Ideal) j = 1 := by
  rw [val_main_v20_apply, val_main_cst_6_apply]
  exact Ideal.ofBits_one_f32

/-! ## Where an update lands

The scatter's operand has one axis (the fifteen bins), which is an inserted window axis and the one axis the
index vector names; the indices have shape `[N, 1]` with the index vector on axis 1, and the updates shape `[N]`
with no window axis. So update `j` has window coordinate `0` and start the word at `(j, 0)` read signed, and it lands at
bin `i` exactly when that word, read signed, is `i`. -/

/-- The three scatters' dimension numbers. -/
abbrev sd := scatter_S15_S33554432x1_S33554432_n_0_0_1

/-- No operand axis is kept, so every window coordinate is `0`. -/
theorem window_zero (j : S33554432.Idx) (a : Fin S15.rank) : sd.window j a = 0 := by
  unfold ScatterDims.window
  rw [dif_neg]
  show a ∉ S15.kept [0]
  have : a = 0 := Subsingleton.elim _ _
  subst this
  decide

/-- The start on the one operand axis is the index word at `(j, 0)`, read signed. -/
theorem start_eq (j : S33554432.Idx) (idx : IVec S33554432x1 32) (a : Fin S15.rank) :
    sd.start j idx a = (idx (ix2 (j 0) 0)).toInt := by
  unfold ScatterDims.start
  have ha : a = 0 := Subsingleton.elim _ _
  subst ha
  rw [dif_pos (show (0 : Fin S15.rank) ∈ sd.scatterDimsToOperandDims from List.mem_singleton.2 rfl)]
  congr 2
  funext b
  apply Fin.ext
  match b with
  | ⟨0, _⟩ =>
    unfold ScatterDims.siIdx
    rw [dif_neg]
    · unfold ScatterDims.siCoord
      show (j _).val = (j 0).val
      exact congrArg (fun y => (j y).val) (Subsingleton.elim _ _)
    · show ¬ ((0 : ℕ) = 1)
      exact Nat.zero_ne_one
  | ⟨1, _⟩ =>
    unfold ScatterDims.siIdx
    rw [dif_pos]
    · rfl
    · rfl

/-- Update `j` lands at bin `i` exactly when the index word at `(j, 0)`, read signed, is `i`. -/
theorem resultIdx_eq_some_iff (j : S33554432.Idx) (idx : IVec S33554432x1 32) (i : S15.Idx) :
    sd.resultIdx? j idx = some i ↔ (idx (ix2 (j 0) 0)).toInt = ((i 0).val : Int) := by
  have hi : (i 0).val < 15 := (i 0).isLt
  unfold ScatterDims.resultIdx?
  split
  next h =>
    have h0 := h 0
    rw [start_eq, window_zero] at h0
    rw [Option.some.injEq]
    constructor
    · intro hEq
      have h1 : (sd.start j idx 0 + ((sd.window j 0 : ℕ) : Int)).toNat = (i 0).val :=
        congrArg (fun f => (f 0).val) hEq
      rw [start_eq, window_zero] at h1
      omega
    · intro hEq
      funext a
      have ha : a = 0 := Subsingleton.elim _ _
      subst ha
      apply Fin.ext
      show (sd.start j idx 0 + ((sd.window j 0 : ℕ) : Int)).toNat = (i 0).val
      rw [start_eq, window_zero]
      omega
  next h =>
    constructor
    · intro hh
      exact absurd hh (by simp)
    · intro hEq
      exfalso
      apply h
      intro a
      have ha : a = 0 := Subsingleton.elim _ _
      subst ha
      rw [start_eq, window_zero]
      show _ ∧ _ < ((15 : ℕ) : Int)
      omega

/-- A 32-bit word read signed is `n`, for `n` below fifteen, exactly when it is the word of `n`. -/
theorem toInt_eq_iff (w : BitVec 32) (n : ℕ) (hn : n < 15) : w.toInt = (n : Int) ↔ w = BitVec.ofNat 32 n := by
  have key : ∀ m, m < 15 → (BitVec.ofNat 32 m).toInt = (m : Int) := by decide
  rw [← key n hn, BitVec.toInt_inj]

/-- The indices broadcast to shape `[N, 1]` read, at `(j, 0)`, the index of entry `j`. -/
theorem bcast_idx_apply (b : IVec S33554432 32) (j : S33554432.Idx) :
    broadcastInDim S33554432x1 ![0] bcast_S33554432_S33554432x1_0 b (ix2 (j 0) 0) = b j :=
  broadcastInDim_apply _ bcast_S33554432_S33554432x1_0 b (ix2 (j 0) 0) j (fun a => match a with
    | ⟨0, _⟩ => by show (j 0).val = if (33554432 : Nat) = 1 then 0 else (j 0).val; rw [if_neg (by decide)])

/-! ## The scatters as per-bin sums -/

/-- The host's accumulating scatter at an index, at the exact instance: the operand's element plus the sum of the
    updates that land on it. Stated over arbitrary shapes. -/
theorem hostScatterAdd_apply {s si su : Shape} {φ : FTy} {w : ℕ} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- A scatter of this program's dimension numbers that adds `u` into zeros at the words `b`: at bin `i` it is the sum
    of `u` over the entries whose word is `i`'s. -/
theorem scatter_zero_apply (b : IVec S33554432 32) (u : FVec Ideal S33554432 .f32) (i : S15.Idx) :
    Host.scatterAdd (F := Ideal) sd
        (broadcastInDim S15 ![] bcast_S_S15 (constant (F := Ideal) S_ .f32 0x00000000#32))
        (broadcastInDim S33554432x1 ![0] bcast_S33554432_S33554432x1_0 b) u i
      = ∑ j : S33554432.Idx, if b j = BitVec.ofNat 32 (i 0).val then u j else (0 : Ideal .f32) := by
  rw [hostScatterAdd_apply, broadcastInDim_scalar_apply, Finset.sum_filter]
  have hz : constant (F := Ideal) S_ .f32 0x00000000#32 ix0 = 0 := Ideal.ofBits_zero_f32
  rw [hz, zero_add]
  refine Finset.sum_congr rfl (fun j _ => ?_)
  refine if_congr ?_ rfl rfl
  rw [resultIdx_eq_some_iff, bcast_idx_apply]
  exact toInt_eq_iff _ _ (i 0).isLt

/-- A scatter of this program's dimension numbers that adds `u` into zeros at the indices `val_main_v13 x0`: at bin
    `i` it is the sum of `u` over the entries whose bin is `i`. -/
theorem scatter_bins (x0 : FVec Ideal S33554432 .f32) (u : FVec Ideal S33554432 .f32) (i : S15.Idx) :
    Host.scatterAdd (F := Ideal) scatter_S15_S33554432x1_S33554432_n_0_0_1
        (broadcastInDim S15 ![] bcast_S_S15 (constant (F := Ideal) S_ .f32 0x00000000#32))
        (broadcastInDim S33554432x1 ![0] bcast_S33554432_S33554432x1_0 (val_main_v13 (F := Ideal) x0)) u i
      = binSum x0 u (BitVec.ofNat 32 (i 0).val) :=
  (scatter_zero_apply (val_main_v13 (F := Ideal) x0) u i).trans
    (Finset.sum_congr rfl fun j _ => by rw [bins_apply])

/-- The first scatter is the per-bin sum of the probabilities. -/
theorem sumP_eq (x0 : FVec Ideal S33554432 .f32) : val_main_v16 (F := Ideal) x0 = sumP x0 :=
  funext fun i => (scatter_bins x0 (val_main_v5 (F := Ideal) x0) i).trans
    (congrArg (fun v => binSum x0 v (BitVec.ofNat 32 (i 0).val)) (funext (probs_apply x0)))

/-- The second scatter is the per-bin sum of the labels. -/
theorem sumT_eq (x0 : FVec Ideal S33554432 .f32) (x1 : IVec S33554432 32) :
    val_main_v19 (F := Ideal) x0 x1 = sumT x0 x1 :=
  funext fun i => scatter_bins x0 (val_main_v6 (F := Ideal) x1) i

/-- The third scatter is the per-bin count. -/
theorem count_eq (x0 : FVec Ideal S33554432 .f32) : val_main_v23 (F := Ideal) x0 = count x0 :=
  funext fun i => (scatter_bins x0 (val_main_v20 (F := Ideal)) i).trans
    (congrArg (fun v => binSum x0 v (BitVec.ofNat 32 (i 0).val)) (funext ones_apply))

/-! ## The result -/

/-- The operations after the three scatters are the calibration error's, operation for operation. -/
theorem result_shape (x0 : FVec Ideal S33554432 .f32) (x1 : IVec S33554432 32) :
    val_main_v36 (F := Ideal) x0 x1
      = ece bcast_S_S15 reducesTo_S15_S_d0 h_S_ (val_main_v16 (F := Ideal) x0) (val_main_v19 (F := Ideal) x0 x1)
          (val_main_v23 (F := Ideal) x0) := rfl

/-- The reference's result is the calibration error of the per-bin sums of probabilities, of labels and of ones. -/
theorem result_eq (x0 : FVec Ideal S33554432 .f32) (x1 : IVec S33554432 32) :
    val_main_v36 (F := Ideal) x0 x1
      = ece bcast_S_S15 reducesTo_S15_S_d0 h_S_ (sumP x0) (sumT x0 x1) (count x0) := by
  rw [result_shape, sumP_eq, sumT_eq, count_eq]

end Cert.ReferenceIdeal.RefValue

end
-- ==== Proof.lean ====
/-
  Expected calibration error over fifteen confidence bins of 2^25 logits and 0/1 labels: a kernel that streams the
  inputs once, in 64 blocks of 4096 × 128, against a reference that sums by segment.

  Both compute `p = 1 / (1 + e^(-x))` and the bin `clip(⌈15 p⌉ − 1, 0, 14)` of every logit with the same operations
  (at the exact instance the kernel's logistic operation is that quotient by definition). The reference scatters the
  probabilities, the labels and ones into fifteen zeros, adding each at its bin: entry `b` is the sum over the entries
  whose bin is `b`. The kernel, at each block, adds for every bin `b` the block's total of the values whose bin is `b`
  to lane `b` of a carried row (the row plus a one-hot row times the total: `0 · x = 0`, `1 · x = x` on the extended
  reals); after the last block, lane `b` holds the sum over the blocks of the blocks' sums, which is the sum over the
  whole input because the blocks partition the flat positions. Addition of extended reals is commutative and
  associative, so no finiteness is needed and the precondition is not opened. The fifteen-entry formula after the sums
  is the same sequence of host operations in both programs.

  The frames of the two kernel programs are the generated ones; the reference's frame is its run with the result
  dropped; the ideal pass rewrote nothing, so `preserves` is `True`.
-/
import proofs.«156423_j2207613190488_1_alg».proof.Defs
import proofs.«156423_j2207613190488_1_alg».proof.Proof.Gen.Kernel
import proofs.«156423_j2207613190488_1_alg».proof.Proof.Gen.Kernel.Skeleton
import proofs.«156423_j2207613190488_1_alg».proof.Proof.Gen.Kernel.Launch
import proofs.«156423_j2207613190488_1_alg».proof.Proof.Gen.Kernel.Points
import proofs.«156423_j2207613190488_1_alg».proof.Proof.Gen.Kernel.Frame
import proofs.«156423_j2207613190488_1_alg».proof.Proof.Gen.KernelIdeal
import proofs.«156423_j2207613190488_1_alg».proof.Proof.Gen.KernelIdeal.Skeleton
import proofs.«156423_j2207613190488_1_alg».proof.Proof.Gen.KernelIdeal.Launch
import proofs.«156423_j2207613190488_1_alg».proof.Proof.Gen.KernelIdeal.Points
import proofs.«156423_j2207613190488_1_alg».proof.Proof.Gen.KernelIdeal.Frame
import proofs.«156423_j2207613190488_1_alg».proof.Proof.Gen.ReferenceIdeal
import proofs.«156423_j2207613190488_1_alg».proof.Proof.Gen.Pre_finite_inputs
import proofs.«156423_j2207613190488_1_alg».proof.Proof.KernelValue
import proofs.«156423_j2207613190488_1_alg».proof.Proof.RefValue
import Idealize.ShloMosaic.Adequacy
import Idealize.ShloMosaic.Init

noncomputable section

namespace Cert.Proof

open Idealize.ShloMosaic Idealize.ShloMosaic.TcCoe Idealize.SL.Sem Cert.Calibration

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the calibration error of the per-bin sums of probabilities, of labels and of ones over
    the whole input: the kernel by its blockwise accumulation, the reference by its three segment sums. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v36_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
